-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : IVec S40000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S5000x128 : Shape := ⟨2, ![5000, 128]⟩
abbrev S64x128 : Shape := ⟨2, ![64, 128]⟩
abbrev S64 : Shape := ⟨1, ![64]⟩
abbrev S64x1 : Shape := ⟨2, ![64, 1]⟩

abbrev nBuf : Space → Nat
  | .hbm => 90
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S40000, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S_, .f32⟩
  | .hbm, ⟨33, _⟩ => ⟨S40000, .f32⟩
  | .hbm, ⟨34, _⟩ => ⟨S640000x1, .i32⟩
  | .hbm, ⟨35, _⟩ => ⟨S40000, .f32⟩
  | .hbm, ⟨36, _⟩ => ⟨S_, .f32⟩
  | .hbm, ⟨37, _⟩ => ⟨S40000, .f32⟩
  | .hbm, ⟨38, _⟩ => ⟨S40000, .f32⟩
  | .hbm, ⟨39, _⟩ => ⟨S40000x1, .f32⟩
  | .hbm, ⟨40, _⟩ => ⟨S40000x128, .f32⟩
  | .hbm, ⟨41, _⟩ => ⟨S40000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S40000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | .hbm, ⟨59, _⟩ => ⟨S_, .f32⟩
  | .hbm, ⟨60, _⟩ => ⟨S40000, .f32⟩
  | .hbm, ⟨61, _⟩ => ⟨S640000x1, .i32⟩
  | .hbm, ⟨62, _⟩ => ⟨S40000, .f32⟩
  | .hbm, ⟨63, _⟩ => ⟨S_, .f32⟩
  | .hbm, ⟨64, _⟩ => ⟨S40000, .f32⟩
  | .hbm, ⟨65, _⟩ => ⟨S40000, .f32⟩
  | .hbm, ⟨66, _⟩ => ⟨S40000x1, .f32⟩
  | .hbm, ⟨67, _⟩ => ⟨S40000x128, .f32⟩
  | .hbm, ⟨68, _⟩ => ⟨S40000x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S40000x128, .f32⟩
  | .hbm, ⟨73, _⟩ => ⟨S_, .f32⟩
  | .hbm, ⟨74, _⟩ => ⟨S64x128, .f32⟩
  | .hbm, ⟨75, _⟩ => ⟨S40000x1, .i32⟩
  | .hbm, ⟨76, _⟩ => ⟨S64x128, .f32⟩
  | .hbm, ⟨77, _⟩ => ⟨S_, .f32⟩
  | .hbm, ⟨78, _⟩ => ⟨S64, .f32⟩
  | .hbm, ⟨79, _⟩ => ⟨S40000x1, .i32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64x1, .f32⟩
  | .hbm, ⟨85, _⟩ => ⟨S64x128, .f32⟩
  | .hbm, ⟨86, _⟩ => ⟨S64x128, .f32⟩
  | .hbm, ⟨87, _⟩ => ⟨S128x128, .f32⟩
  | .hbm, ⟨88, _⟩ => ⟨S1x128, .f32⟩
  | .hbm, ⟨89, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S64x128, .f32⟩
  | .local _ .vmem, ⟨19, _⟩ => ⟨S128x128, .f32⟩
  | .local _ .vmem, ⟨20, _⟩ => ⟨S1x128, .f32⟩
  | .local _ .vmem, ⟨21, _⟩ => ⟨S64x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v61) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S64x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 108
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S128x128, .f32⟩
  | .hbm, ⟨41, _⟩ => ⟨S40000x128, .f32⟩
  | .hbm, ⟨42, _⟩ => ⟨S128x128, .f32⟩
  | .hbm, ⟨43, _⟩ => ⟨S40000x128, .f32⟩
  | .hbm, ⟨44, _⟩ => ⟨S40000x128, .f32⟩
  | .hbm, ⟨45, _⟩ => ⟨S1x128, .f32⟩
  | .hbm, ⟨46, _⟩ => ⟨S40000x128, .f32⟩
  | .hbm, ⟨47, _⟩ => ⟨S40000x128, .f32⟩
  | .hbm, ⟨48, _⟩ => ⟨S_, .f32⟩
  | .hbm, ⟨49, _⟩ => ⟨S40000x128, .f32⟩
  | .hbm, ⟨50, _⟩ => ⟨S40000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S40000x128, .f32⟩
  | .hbm, ⟨62, _⟩ => ⟨S640000x1, .i32⟩
  | .hbm, ⟨63, _⟩ => ⟨S40000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S40000, .f32⟩
  | .hbm, ⟨68, _⟩ => ⟨S640000x1, .i32⟩
  | .hbm, ⟨69, _⟩ => ⟨S40000, .f32⟩
  | .hbm, ⟨70, _⟩ => ⟨S_, .f32⟩
  | .hbm, ⟨71, _⟩ => ⟨S40000, .f32⟩
  | .hbm, ⟨72, _⟩ => ⟨S40000, .f32⟩
  | .hbm, ⟨73, _⟩ => ⟨S40000x1, .f32⟩
  | .hbm, ⟨74, _⟩ => ⟨S40000x128, .f32⟩
  | .hbm, ⟨75, _⟩ => ⟨S40000x128, .f32⟩
  | .hbm, ⟨76, _⟩ => ⟨S128x128, .f32⟩
  | .hbm, ⟨77, _⟩ => ⟨S40000x128, .f32⟩
  | .hbm, ⟨78, _⟩ => ⟨S128x128, .f32⟩
  | .hbm, ⟨79, _⟩ => ⟨S40000x128, .f32⟩
  | .hbm, ⟨80, _⟩ => ⟨S40000x128, .f32⟩
  | .hbm, ⟨81, _⟩ => ⟨S1x128, .f32⟩
  | .hbm, ⟨82, _⟩ => ⟨S40000x128, .f32⟩
  | .hbm, ⟨83, _⟩ => ⟨S40000x128, .f32⟩
  | .hbm, ⟨84, _⟩ => ⟨S_, .f32⟩
  | .hbm, ⟨85, _⟩ => ⟨S40000x128, .f32⟩
  | .hbm, ⟨86, _⟩ => ⟨S40000x128, .f32⟩
  | .hbm, ⟨87, _⟩ => ⟨S_, .f32⟩
  | .hbm, ⟨88, _⟩ => ⟨S64x128, .f32⟩
  | .hbm, ⟨89, _⟩ => ⟨S40000x1, .i32⟩
  | .hbm, ⟨90, _⟩ => ⟨S64x128, .f32⟩
  | .hbm, ⟨91, _⟩ => ⟨S_, .f32⟩
  | .hbm, ⟨92, _⟩ => ⟨S40000, .f32⟩
  | .hbm, ⟨93, _⟩ => ⟨S_, .f32⟩
  | .hbm, ⟨94, _⟩ => ⟨S64, .f32⟩
  | .hbm, ⟨95, _⟩ => ⟨S40000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S128x128, .f32⟩
  | .hbm, ⟨104, _⟩ => ⟨S64x128, .f32⟩
  | .hbm, ⟨105, _⟩ => ⟨S1x128, .f32⟩
  | .hbm, ⟨106, _⟩ => ⟨S64x128, .f32⟩
  | .hbm, ⟨107, _⟩ => ⟨S64x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.Stages.lean ====
/-
  The graph network, stage by stage, as pure functions of whole arrays.

  A convolution layer takes node features h : [40000, 128] and the edge list e : [2, 640000] (row 0 the source
  node of every edge, row 1 its destination).  Its aggregation is the mean over incoming edges:
      meanAgg h e = (segment-sum over dst of h[src]) / max (in-degree, 1)        (row by row)
  with a negative source index wrapped once by 40000.  Its dense part is
      dense A X Wr Wo b = max (A · Wrᵀ + X · Woᵀ + b, 0)
  so a layer is   conv h e Wr Wo b = dense (meanAgg h e) h Wr Wo b.
  The read-out pools the node features per graph,
      pool h batch = (segment-sum over batch of h) / max (node count, 1),
  and ends in the affine map   lin P Wc bc = P · Wcᵀ + bc.
  The whole network is   lin (pool (conv (conv x e …) e …) batch) Wc bc.

  Gather, scatter-add, quotient and the integer index arithmetic are never opened below: both programs apply
  the very same operations, so they are carried as these functions.
-/
import proofs.«136990_j39977555591469_1_alg».proof.Proof.Gen.ReferenceIdeal

noncomputable section

namespace Cert.Stages

open Idealize.ShloMosaic Cert.ReferenceIdeal Cert.ReferenceIdeal.Gen

variable {F : FTy → Type} [FloatOps F]

/-- Row 0 of the edge list, a negative entry wrapped by the node count, as a column of indices. -/
def srcCol (e : (⟨S2x640000, .i32⟩ : BufTy).Contents (Elt F)) : (⟨S640000x1, .i32⟩ : BufTy).Contents (Elt F) :=
  broadcastInDim S640000x1 ![0] bcast_S640000_S640000x1_0
    (select
      (cmpi .slt (shapeCast _ (extractStridedSlice S1x640000 ![0, 0] e slices_S2x640000_S1x640000_0_0) shapeCasts_S1x640000_S640000)
        (broadcastInDim S640000 ![] bcast_S_S640000 (constantI S_ 32 0#32)))
      (addi (shapeCast _ (extractStridedSlice S1x640000 ![0, 0] e slices_S2x640000_S1x640000_0_0) shapeCasts_S1x640000_S640000)
        (broadcastInDim S640000 ![] bcast_S_S640000 (constantI S_ 32 40000#32)))
      (shapeCast _ (extractStridedSlice S1x640000 ![0, 0] e slices_S2x640000_S1x640000_0_0) shapeCasts_S1x640000_S640000))

/-- Row 1 of the edge list as a column of indices. -/
def dstCol (e : (⟨S2x640000, .i32⟩ : BufTy).Contents (Elt F)) : (⟨S640000x1, .i32⟩ : BufTy).Contents (Elt F) :=
  broadcastInDim S640000x1 ![0] bcast_S640000_S640000x1_0
    (shapeCast _ (extractStridedSlice S1x640000 ![1, 0] e slices_S2x640000_S1x640000_1_0) shapeCasts_S1x640000_S640000)

/-- The mean of the source rows over each node's incoming edges (an isolated node gets the zero sum over 1). -/
def meanAgg (h : (⟨S40000x128, .f32⟩ : BufTy).Contents (Elt F)) (e : (⟨S2x640000, .i32⟩ : BufTy).Contents (Elt F)) :
    (⟨S40000x128, .f32⟩ : BufTy).Contents (Elt F) :=
  Host.divf
    (Host.scatterAdd scatter_S40000x128_S640000x1_S640000x128_1_0_0_1
      (broadcastInDim S40000x128 ![] bcast_S_S40000x128 (constant S_ .f32 0x00000000#32)) (dstCol e)
      (Host.gather gather_S40000x128_S640000x1_S640000x128_1_0_n_n_0_1_1128 h (srcCol e)))
    (broadcastInDim S40000x128 ![0, 1] bcast_S40000x1_S40000x128_0_1 (broadcastInDim S40000x1 ![0] bcast_S40000_S40000x1_0
      (maximumf
        (Host.scatterAdd scatter_S40000_S640000x1_S640000_n_0_0_1
          (broadcastInDim S40000 ![] bcast_S_S40000 (constant S_ .f32 0x00000000#32)) (dstCol e)
          (broadcastInDim S640000 ![] bcast_S_S640000 (constant S_ .f32 0x3F800000#32)))
        (broadcastInDim S40000 ![] bcast_S_S40000 (constant S_ .f32 0x3F800000#32)))))

/-- max (A · Wrᵀ + X · Woᵀ + b, 0), the bias along the rows. -/
def dense (A X : (⟨S40000x128, .f32⟩ : BufTy).Contents (Elt F)) (Wr Wo : (⟨S128x128, .f32⟩ : BufTy).Contents (Elt F))
    (b : (⟨S128, .f32⟩ : BufTy).Contents (Elt F)) : (⟨S40000x128, .f32⟩ : BufTy).Contents (Elt F) :=
  maximumf
    (addf
      (addf
        (Host.dotGeneral dot_S40000x128_S128x128_S40000x128_1_0_0_1_n_n none A (transpose S128x128 [1, 0] Wr transposes_S128x128_S128x128_1_0))
        (Host.dotGeneral dot_S40000x128_S128x128_S40000x128_1_0_0_1_n_n none X (transpose S128x128 [1, 0] Wo transposes_S128x128_S128x128_1_0)))
      (broadcastInDim S40000x128 ![0, 1] bcast_S1x128_S40000x128_0_1 (broadcastInDim S1x128 ![1] bcast_S128_S1x128_1 b)))
    (broadcastInDim S40000x128 ![] bcast_S_S40000x128 (constant S_ .f32 0x00000000#32))

/-- One convolution layer. -/
def conv (h : (⟨S40000x128, .f32⟩ : BufTy).Contents (Elt F)) (e : (⟨S2x640000, .i32⟩ : BufTy).Contents (Elt F))
    (Wr Wo : (⟨S128x128, .f32⟩ : BufTy).Contents (Elt F)) (b : (⟨S128, .f32⟩ : BufTy).Contents (Elt F)) :
    (⟨S40000x128, .f32⟩ : BufTy).Contents (Elt F) :=
  dense (meanAgg h e) h Wr Wo b

/-- The mean of the node rows of each graph (an empty graph gets the zero sum over 1). -/
def pool (h : (⟨S40000x128, .f32⟩ : BufTy).Contents (Elt F)) (batch : (⟨S40000, .i32⟩ : BufTy).Contents (Elt F)) :
    (⟨S64x128, .f32⟩ : BufTy).Contents (Elt F) :=
  Host.divf
    (Host.scatterAdd scatter_S64x128_S40000x1_S40000x128_1_0_0_1
      (broadcastInDim S64x128 ![] bcast_S_S64x128 (constant S_ .f32 0x00000000#32))
      (broadcastInDim S40000x1 ![0] bcast_S40000_S40000x1_0 batch) h)
    (broadcastInDim S64x128 ![0, 1] bcast_S64x1_S64x128_0_1 (broadcastInDim S64x1 ![0] bcast_S64_S64x1_0
      (maximumf
        (Host.scatterAdd scatter_S64_S40000x1_S40000_n_0_0_1
          (broadcastInDim S64 ![] bcast_S_S64 (constant S_ .f32 0x00000000#32))
          (broadcastInDim S40000x1 ![0] bcast_S40000_S40000x1_0 batch)
          (broadcastInDim S40000 ![] bcast_S_S40000 (constant S_ .f32 0x3F800000#32)))
        (broadcastInDim S64 ![] bcast_S_S64 (constant S_ .f32 0x3F800000#32)))))

/-- P · Wcᵀ + bc, the bias along the rows. -/
def lin (P : (⟨S64x128, .f32⟩ : BufTy).Contents (Elt F)) (Wc : (⟨S128x128, .f32⟩ : BufTy).Contents (Elt F))
    (bc : (⟨S128, .f32⟩ : BufTy).Contents (Elt F)) : (⟨S64x128, .f32⟩ : BufTy).Contents (Elt F) :=
  addf
    (Host.dotGeneral dot_S64x128_S128x128_S64x128_1_0_0_1_n_n none P (transpose S128x128 [1, 0] Wc transposes_S128x128_S128x128_1_0))
    (broadcastInDim S64x128 ![0, 1] bcast_S1x128_S64x128_0_1 (broadcastInDim S1x128 ![1] bcast_S128_S1x128_1 bc))

/-- The whole network. -/
def net (x : (⟨S40000x128, .f32⟩ : BufTy).Contents (Elt F)) (e : (⟨S2x640000, .i32⟩ : BufTy).Contents (Elt F))
    (batch : (⟨S40000, .i32⟩ : BufTy).Contents (Elt F))
    (Wr1 Wo1 : (⟨S128x128, .f32⟩ : BufTy).Contents (Elt F)) (b1 : (⟨S128, .f32⟩ : BufTy).Contents (Elt F))
    (Wr2 Wo2 : (⟨S128x128, .f32⟩ : BufTy).Contents (Elt F)) (b2 : (⟨S128, .f32⟩ : BufTy).Contents (Elt F))
    (Wc : (⟨S128x128, .f32⟩ : BufTy).Contents (Elt F)) (bc : (⟨S128, .f32⟩ : BufTy).Contents (Elt F)) :
    (⟨S64x128, .f32⟩ : BufTy).Contents (Elt F) :=
  lin (pool (conv (conv x e Wr1 Wo1 b1) e Wr2 Wo2 b2) batch) Wc bc

end Cert.Stages

end
-- ==== Proof.KStretch0.lean ====
/-
  The host operations before the first kernel region, read back buffer by buffer from the launch memory.

  They compute the first layer's mean aggregation of the node features over the edge list, the two transposed
  weights and the bias as a [1, 128] row; they leave the arguments alone; and they leave behind three arrays later
  stretches read again: the two rows of the edge list as flat index vectors and the all-ones vectors.
-/
import proofs.«136990_j39977555591469_1_alg».proof.Proof.Gen.KernelIdeal.Frame
import proofs.«136990_j39977555591469_1_alg».proof.Proof.Stages
import Idealize.ShloMosaic.Lib.StableHlo.Run
import Idealize.ShloMosaic.PureOps.Ideal

set_option maxRecDepth 16384

noncomputable section

namespace Cert.KStretch0

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The mean aggregation of the launch features. -/
theorem v23 (c : Dev nD) : W1 m ρ c (Proc.devRef .tc main_v23)
    = Cert.Stages.meanAgg (F := Ideal) (m ((c : Thread nD τ).loc main_arg0)) (m ((c : Thread nD τ).loc main_arg1)) := by
  show StableHlo.after hostOps0 (W0 m ρ c) (Proc.devRef .tc main_v23) = _
  dsimp only [hostOps0]
  after_results_simp
  unfold Cert.Stages.meanAgg Cert.Stages.srcCol Cert.Stages.dstCol
  rfl

/-- The first layer's neighbour weight, transposed. -/
theorem v24 (c : Dev nD) : W1 m ρ c (Proc.devRef .tc main_v24)
    = transpose S128x128 [1, 0] (m ((c : Thread nD τ).loc main_arg3)) transposes_S128x128_S128x128_1_0 := by
  show StableHlo.after hostOps0 (W0 m ρ c) (Proc.devRef .tc main_v24) = _
  dsimp only [hostOps0]
  after_results_simp <;> rfl

/-- The first layer's root weight, transposed. -/
theorem v25 (c : Dev nD) : W1 m ρ c (Proc.devRef .tc main_v25)
    = transpose S128x128 [1, 0] (m ((c : Thread nD τ).loc main_arg4)) transposes_S128x128_S128x128_1_0 := by
  show StableHlo.after hostOps0 (W0 m ρ c) (Proc.devRef .tc main_v25) = _
  dsimp only [hostOps0]
  after_results_simp <;> rfl

/-- The first layer's bias as a row. -/
theorem v26 (c : Dev nD) : W1 m ρ c (Proc.devRef .tc main_v26)
    = shapeCast S1x128 (m ((c : Thread nD τ).loc main_arg5)) shapeCasts_S128_S1x128 := by
  show StableHlo.after hostOps0 (W0 m ρ c) (Proc.devRef .tc main_v26) = _
  dsimp only [hostOps0]
  after_results_simp <;> rfl

/-- Row 0 of the edge list as a flat vector. -/
theorem v1 (c : Dev nD) : W1 m ρ c (Proc.devRef .tc main_v1)
    = shapeCast S640000 (extractStridedSlice S1x640000 ![0, 0] (m ((c : Thread nD τ).loc main_arg1)) slices_S2x640000_S1x640000_0_0)
        shapeCasts_S1x640000_S640000 := by
  show StableHlo.after hostOps0 (W0 m ρ c) (Proc.devRef .tc main_v1) = _
  dsimp only [hostOps0]
  after_results_simp <;> rfl

/-- Row 1 of the edge list as a flat vector. -/
theorem v3 (c : Dev nD) : W1 m ρ c (Proc.devRef .tc main_v3)
    = shapeCast S640000 (extractStridedSlice S1x640000 ![1, 0] (m ((c : Thread nD τ).loc main_arg1)) slices_S2x640000_S1x640000_1_0)
        shapeCasts_S1x640000_S640000 := by
  show StableHlo.after hostOps0 (W0 m ρ c) (Proc.devRef .tc main_v3) = _
  dsimp only [hostOps0]
  after_results_simp <;> rfl

/-- One per edge. -/
theorem v4 (c : Dev nD) : W1 m ρ c (Proc.devRef .tc main_v4)
    = broadcastInDim S640000 ![] bcast_S_S640000 (constant (F := Ideal) S_ .f32 0x3F800000#32) := by
  show StableHlo.after hostOps0 (W0 m ρ c) (Proc.devRef .tc main_v4) = _
  dsimp only [hostOps0]
  after_results_simp <;> rfl

/-- One per node. -/
theorem v5 (c : Dev nD) : W1 m ρ c (Proc.devRef .tc main_v5)
    = broadcastInDim S40000 ![] bcast_S_S40000 (constant (F := Ideal) S_ .f32 0x3F800000#32) := by
  show StableHlo.after hostOps0 (W0 m ρ c) (Proc.devRef .tc main_v5) = _
  dsimp only [hostOps0]
  after_results_simp <;> rfl

/-- No operation of the stretch writes an argument. -/
theorem arg (c : Dev nD) (b : Ref sig .tc) (hb : b = main_arg0 ∨ b = main_arg1 ∨ b = main_arg2 ∨ b = main_arg6 ∨ b = main_arg7 ∨ b = main_arg8
      ∨ b = main_arg9 ∨ b = main_arg10) :
    W1 m ρ c (Proc.devRef .tc b) = m ((c : Thread nD τ).loc b) := by
  show StableHlo.after hostOps0 (W0 m ρ c) (Proc.devRef .tc b) = _
  dsimp only [hostOps0]
  rcases hb with rfl | rfl | rfl | rfl | rfl | rfl | rfl | rfl <;> after_results_simp

end Cert.KStretch0

end
-- ==== Proof.KStretch1.lean ====
/-
  The host operations between the first and the second kernel region, read back from what the first region leaves.

  The region writes only its result array, so every other buffer is what the first stretch left: the edge list's two
  index vectors, the all-ones vectors and the arguments.  Over those the stretch computes the second layer's mean
  aggregation of the FIRST LAYER'S RESULT, the two transposed weights and the bias row, and leaves that result,
  the node-to-graph assignment, the per-node ones and the read-out's arguments alone.
-/
import proofs.«136990_j39977555591469_1_alg».proof.Proof.Gen.KernelIdeal.Frame
import proofs.«136990_j39977555591469_1_alg».proof.Proof.Stages
import proofs.«136990_j39977555591469_1_alg».proof.Proof.KStretch0
import Idealize.ShloMosaic.Lib.StableHlo.Run
import Idealize.ShloMosaic.PureOps.Ideal

set_option maxRecDepth 16384

noncomputable section

namespace Cert.KStretch1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the first region: row 0 of the edge list as a flat vector. -/
theorem w2_v1 (c : Dev nD) : W2 m ρ c (Proc.devRef .tc main_v1)
    = shapeCast S640000 (extractStridedSlice S1x640000 ![0, 0] (m ((c : Thread nD τ).loc main_arg1)) slices_S2x640000_S1x640000_0_0)
        shapeCasts_S1x640000_S640000 :=
  (W2_of_ne m ρ c main_v1 (by decide)).trans (Cert.KStretch0.v1 m ρ c)

/-- After the first region: row 1 of the edge list as a flat vector. -/
theorem w2_v3 (c : Dev nD) : W2 m ρ c (Proc.devRef .tc main_v3)
    = shapeCast S640000 (extractStridedSlice S1x640000 ![1, 0] (m ((c : Thread nD τ).loc main_arg1)) slices_S2x640000_S1x640000_1_0)
        shapeCasts_S1x640000_S640000 :=
  (W2_of_ne m ρ c main_v3 (by decide)).trans (Cert.KStretch0.v3 m ρ c)

/-- After the first region: one per edge. -/
theorem w2_v4 (c : Dev nD) : W2 m ρ c (Proc.devRef .tc main_v4)
    = broadcastInDim S640000 ![] bcast_S_S640000 (constant (F := Ideal) S_ .f32 0x3F800000#32) :=
  (W2_of_ne m ρ c main_v4 (by decide)).trans (Cert.KStretch0.v4 m ρ c)

/-- After the first region: one per node. -/
theorem w2_v5 (c : Dev nD) : W2 m ρ c (Proc.devRef .tc main_v5)
    = broadcastInDim S40000 ![] bcast_S_S40000 (constant (F := Ideal) S_ .f32 0x3F800000#32) :=
  (W2_of_ne m ρ c main_v5 (by decide)).trans (Cert.KStretch0.v5 m ρ c)

/-- After the first region an argument the region does not stage is as launched. -/
theorem w2_arg (c : Dev nD) (b : Ref sig .tc) (hb : b = main_arg1 ∨ b = main_arg2 ∨ b = main_arg6 ∨ b = main_arg7 ∨ b = main_arg8
      ∨ b = main_arg9 ∨ b = main_arg10) :
    W2 m ρ c (Proc.devRef .tc b) = m ((c : Thread nD τ).loc b) := by
  rcases hb with rfl | rfl | rfl | rfl | rfl | rfl | rfl
  · exact (W2_of_ne m ρ c main_arg1 (by decide)).trans (Cert.KStretch0.arg m ρ c main_arg1 (by simp))
  · exact (W2_of_ne m ρ c main_arg2 (by decide)).trans (Cert.KStretch0.arg m ρ c main_arg2 (by simp))
  · exact (W2_of_ne m ρ c main_arg6 (by decide)).trans (Cert.KStretch0.arg m ρ c main_arg6 (by simp))
  · exact (W2_of_ne m ρ c main_arg7 (by decide)).trans (Cert.KStretch0.arg m ρ c main_arg7 (by simp))
  · exact (W2_of_ne m ρ c main_arg8 (by decide)).trans (Cert.KStretch0.arg m ρ c main_arg8 (by simp))
  · exact (W2_of_ne m ρ c main_arg9 (by decide)).trans (Cert.KStretch0.arg m ρ c main_arg9 (by simp))
  · exact (W2_of_ne m ρ c main_arg10 (by decide)).trans (Cert.KStretch0.arg m ρ c main_arg10 (by simp))

/-- The mean aggregation of the first layer's result. -/
theorem v45 (c : Dev nD) : W3 m ρ c (Proc.devRef .tc main_v45)
    = Cert.Stages.meanAgg (F := Ideal) (W2 m ρ c (Proc.devRef .tc main_v27)) (m ((c : Thread nD τ).loc main_arg1)) := by
  show StableHlo.after hostOps1 (W2 m ρ c) (Proc.devRef .tc main_v45) = _
  dsimp only [hostOps1]
  after_results_simp
  rw [w2_v1, w2_v3, w2_v4]
  unfold Cert.Stages.meanAgg Cert.Stages.srcCol Cert.Stages.dstCol
  rfl

/-- The stretch leaves the first layer's result alone. -/
theorem v27 (c : Dev nD) : W3 m ρ c (Proc.devRef .tc main_v27) = W2 m ρ c (Proc.devRef .tc main_v27) := by
  show StableHlo.after hostOps1 (W2 m ρ c) (Proc.devRef .tc main_v27) = _
  dsimp only [hostOps1]
  after_results_simp

/-- The second layer's neighbour weight, transposed. -/
theorem v46 (c : Dev nD) : W3 m ρ c (Proc.devRef .tc main_v46)
    = transpose S128x128 [1, 0] (m ((c : Thread nD τ).loc main_arg6)) transposes_S128x128_S128x128_1_0 := by
  show StableHlo.after hostOps1 (W2 m ρ c) (Proc.devRef .tc main_v46) = _
  dsimp only [hostOps1]
  after_results_simp
  rw [w2_arg m ρ c main_arg6 (by simp)]

/-- The second layer's root weight, transposed. -/
theorem v47 (c : Dev nD) : W3 m ρ c (Proc.devRef .tc main_v47)
    = transpose S128x128 [1, 0] (m ((c : Thread nD τ).loc main_arg7)) transposes_S128x128_S128x128_1_0 := by
  show StableHlo.after hostOps1 (W2 m ρ c) (Proc.devRef .tc main_v47) = _
  dsimp only [hostOps1]
  after_results_simp
  rw [w2_arg m ρ c main_arg7 (by simp)]

/-- The second layer's bias as a row. -/
theorem v48 (c : Dev nD) : W3 m ρ c (Proc.devRef .tc main_v48)
    = shapeCast S1x128 (m ((c : Thread nD τ).loc main_arg8)) shapeCasts_S128_S1x128 := by
  show StableHlo.after hostOps1 (W2 m ρ c) (Proc.devRef .tc main_v48) = _
  dsimp only [hostOps1]
  after_results_simp
  rw [w2_arg m ρ c main_arg8 (by simp)]
  rfl

/-- The stretch writes neither the per-node ones nor the read-out's arguments. -/
theorem kept (c : Dev nD) (b : Ref sig .tc) (hb : b = main_v5 ∨ b = main_arg2 ∨ b = main_arg9 ∨ b = main_arg10) :
    W3 m ρ c (Proc.devRef .tc b) = W2 m ρ c (Proc.devRef .tc b) := by
  show StableHlo.after hostOps1 (W2 m ρ c) (Proc.devRef .tc b) = _
  dsimp only [hostOps1]
  rcases hb with rfl | rfl | rfl | rfl <;> after_results_simp

end Cert.KStretch1

end
-- ==== Proof.KStretch2.lean ====
/-
  The host operations between the second kernel region and the read-out, read back from what the second region
  leaves.

  The region writes only its result array, so the node-to-graph assignment, the per-node ones and the read-out's
  arguments are what the launch and the first stretch left.  Over those the stretch pools the SECOND LAYER'S RESULT
  per graph, transposes the read-out weight and reshapes its bias to a row.
-/
import proofs.«136990_j39977555591469_1_alg».proof.Proof.Gen.KernelIdeal.Frame
import proofs.«136990_j39977555591469_1_alg».proof.Proof.Stages
import proofs.«136990_j39977555591469_1_alg».proof.Proof.KStretch1
import Idealize.ShloMosaic.Lib.StableHlo.Run
import Idealize.ShloMosaic.PureOps.Ideal

set_option maxRecDepth 16384

noncomputable section

namespace Cert.KStretch2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the second region: one per node. -/
theorem w4_v5 (c : Dev nD) : W4 m ρ c (Proc.devRef .tc main_v5)
    = broadcastInDim S40000 ![] bcast_S_S40000 (constant (F := Ideal) S_ .f32 0x3F800000#32) :=
  (W4_of_ne m ρ c main_v5 (by decide)).trans ((Cert.KStretch1.kept m ρ c main_v5 (by simp)).trans (Cert.KStretch1.w2_v5 m ρ c))

/-- After the second region the read-out's arguments are as launched. -/
theorem w4_arg (c : Dev nD) (b : Ref sig .tc) (hb : b = main_arg2 ∨ b = main_arg9 ∨ b = main_arg10) :
    W4 m ρ c (Proc.devRef .tc b) = m ((c : Thread nD τ).loc b) := by
  rcases hb with rfl | rfl | rfl
  · exact (W4_of_ne m ρ c main_arg2 (by decide)).trans ((Cert.KStretch1.kept m ρ c main_arg2 (by simp)).trans
      (Cert.KStretch1.w2_arg m ρ c main_arg2 (by simp)))
  · exact (W4_of_ne m ρ c main_arg9 (by decide)).trans ((Cert.KStretch1.kept m ρ c main_arg9 (by simp)).trans
      (Cert.KStretch1.w2_arg m ρ c main_arg9 (by simp)))
  · exact (W4_of_ne m ρ c main_arg10 (by decide)).trans ((Cert.KStretch1.kept m ρ c main_arg10 (by simp)).trans
      (Cert.KStretch1.w2_arg m ρ c main_arg10 (by simp)))

/-- The per-graph mean of the second layer's result. -/
theorem v60 (c : Dev nD) : W5 m ρ c (Proc.devRef .tc main_v60)
    = Cert.Stages.pool (F := Ideal) (W4 m ρ c (Proc.devRef .tc main_v49)) (m ((c : Thread nD τ).loc main_arg2)) := by
  show StableHlo.after hostOps2 (W4 m ρ c) (Proc.devRef .tc main_v60) = _
  dsimp only [hostOps2]
  after_results_simp
  rw [w4_v5, w4_arg m ρ c main_arg2 (by simp)]
  unfold Cert.Stages.pool
  rfl

/-- The read-out weight, transposed. -/
theorem v61 (c : Dev nD) : W5 m ρ c (Proc.devRef .tc main_v61)
    = transpose S128x128 [1, 0] (m ((c : Thread nD τ).loc main_arg9)) transposes_S128x128_S128x128_1_0 := by
  show StableHlo.after hostOps2 (W4 m ρ c) (Proc.devRef .tc main_v61) = _
  dsimp only [hostOps2]
  after_results_simp
  rw [w4_arg m ρ c main_arg9 (by simp)]

/-- The read-out bias as a row. -/
theorem v62 (c : Dev nD) : W5 m ρ c (Proc.devRef .tc main_v62)
    = shapeCast S1x128 (m ((c : Thread nD τ).loc main_arg10)) shapeCasts_S128_S1x128 := by
  show StableHlo.after hostOps2 (W4 m ρ c) (Proc.devRef .tc main_v62) = _
  dsimp only [hostOps2]
  after_results_simp
  rw [w4_arg m ρ c main_arg10 (by simp)]
  rfl

end Cert.KStretch2

end
-- ==== Proof.RowSpec.lean ====
/-
  One entry of the two dense maps, written over the extended reals.

  With A, X : [n, 128], weights W₁, W₂ : [128, 128] already laid out "contraction index first", and a bias row β,
      denseAt A X W₁ W₂ β p q = max ( Σ_κ A(p,κ)·W₁(κ,q) + Σ_κ X(p,κ)·W₂(κ,q) + β(q) , 0 )
      linAt   P W β p q       =       Σ_κ P(p,κ)·W(κ,q) + β(q).
  Entry (p, q) depends on row p of the left operands only, which is why a row-blocked kernel and a whole-array
  product agree entry by entry with no law beyond reading both at (p, q).
-/
import Idealize.ShloMosaic.Lib.ValueIdx
import Idealize.ShloMosaic.PureOps.Ideal.Laws

noncomputable section

namespace Cert.RowSpec

open Idealize.ShloMosaic Idealize.ShloMosaic.ValueIdx

/-- Entry (p, q) of max (A·W₁ + X·W₂ + β, 0). -/
def denseAt {n : ℕ} (A X : FVec Ideal ⟨2, ![n, 128]⟩ .f32) (W₁ W₂ : FVec Ideal ⟨2, ![128, 128]⟩ .f32) (β : Fin 128 → Ideal .f32)
    (p : Fin n) (q : Fin 128) : Ideal .f32 :=
  max ((∑ κ : Fin 128, A (ix2 p κ) * W₁ (ix2 κ q)) + (∑ κ : Fin 128, X (ix2 p κ) * W₂ (ix2 κ q)) + β q)
    (Ideal.ofBits .f32 0x00000000#32)

/-- Entry (p, q) of P·W + β. -/
def linAt {n : ℕ} (P : FVec Ideal ⟨2, ![n, 128]⟩ .f32) (W : FVec Ideal ⟨2, ![128, 128]⟩ .f32) (β : Fin 128 → Ideal .f32)
    (p : Fin n) (q : Fin 128) : Ideal .f32 :=
  (∑ κ : Fin 128, P (ix2 p κ) * W (ix2 κ q)) + β q

/-- The whole array of the first map, the bias given as a [1, 128] row. -/
def denseArr {n : ℕ} (A X : FVec Ideal ⟨2, ![n, 128]⟩ .f32) (W₁ W₂ : FVec Ideal ⟨2, ![128, 128]⟩ .f32)
    (B : FVec Ideal ⟨2, ![1, 128]⟩ .f32) : FVec Ideal ⟨2, ![n, 128]⟩ .f32 :=
  fun i => denseAt A X W₁ W₂ (fun q => B (ix2 0 q)) (i 0) (i 1)

/-- The whole array of the second map, the bias given as a [1, 128] row. -/
def linArr {n : ℕ} (P : FVec Ideal ⟨2, ![n, 128]⟩ .f32) (W : FVec Ideal ⟨2, ![128, 128]⟩ .f32)
    (B : FVec Ideal ⟨2, ![1, 128]⟩ .f32) : FVec Ideal ⟨2, ![n, 128]⟩ .f32 :=
  fun i => linAt P W (fun q => B (ix2 0 q)) (i 0) (i 1)

end Cert.RowSpec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KPayload.lean ====
/-
  The three kernel bodies, read at one entry of their output block.

  Each body loads whole blocks, rounds them to bf16 (the identity on extended reals), multiplies into a zero
  accumulator and adds a bias row; the two layer kernels add the two products first and clamp at 0 last.  Entry
  (r, q) of the stored block is therefore the row formula of the loaded blocks:
      layer kernels :  max ( Σ_κ x0(r,κ)·x2(κ,q) + Σ_κ x1(r,κ)·x3(κ,q) + x4(0,q) , 0 )
      read-out      :        Σ_κ x0(r,κ)·x1(κ,q) + x2(0,q).
-/
import proofs.«136990_j39977555591469_1_alg».proof.Proof.Gen.KernelIdeal.Skeleton
import proofs.«136990_j39977555591469_1_alg».proof.Proof.RowSpec
import proofs.«136990_j39977555591469_1_alg».proof.Proof.LibPlainDot
import Idealize.ShloMosaic.Lib.Pipeline.Value

noncomputable section

namespace Cert.KPayload

open Idealize.ShloMosaic Idealize.ShloMosaic.ValueIdx Cert.KernelIdeal Cert.KernelIdeal.Gen

/-- The layer kernels' product [5000, 128] · [128, 128] is a plain matrix product. -/
theorem plain5000 : Cert.PlainDot.Plain dot_S5000x128_S128x128_S5000x128_1_0_0_1_n_n := ⟨rfl, rfl, rfl, rfl, rfl, rfl⟩
/-- So is the read-out kernel's [64, 128] · [128, 128]. -/
theorem plain64 : Cert.PlainDot.Plain dot_S64x128_S128x128_S64x128_1_0_0_1_n_n := ⟨rfl, rfl, rfl, rfl, rfl, rfl⟩

/-- A [1, 128] row broadcast down 5000 rows reads its column's entry. -/
theorem bias5000 (x4 : Vec Ideal S1x128 .f32) (r : Fin 5000) (q : Fin 128) :
    broadcastTo S5000x128 x4 broadcasts_S1x128_S5000x128 (ix2 r q) = x4 (ix2 0 q) :=
  broadcastTo_apply x4 broadcasts_S1x128_S5000x128 (ix2 r q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- A [1, 128] row broadcast down 64 rows reads its column's entry. -/
theorem bias64 (x2 : Vec Ideal S1x128 .f32) (r : Fin 64) (q : Fin 128) :
    broadcastTo S64x128 x2 broadcasts_S1x128_S64x128 (ix2 r q) = x2 (ix2 0 q) :=
  broadcastTo_apply x2 broadcasts_S1x128_S64x128 (ix2 r q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The first layer's kernel body at an entry of its block. -/
theorem k0_pay1_apply (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q) = Cert.RowSpec.denseAt x0 x1 x2 x3 (fun q => x4 (ix2 0 q)) r q := by
  unfold k0_pay1 Cert.RowSpec.denseAt
  simp only [shapeCast_self]
  rw [maximumf_apply, addf_apply, addf_apply, broadcast_apply,
    Cert.PlainDot.matmul_zero_apply plain5000 rfl rfl, Cert.PlainDot.matmul_zero_apply plain5000 rfl rfl, bias5000]
  simp only [truncf_apply]
  rfl

/-- The second layer's kernel body at an entry of its block: the same formula. -/
theorem k1_pay1_apply (x0 x1 : Vec Ideal S5000x128 .f32) (x2 x3 : Vec Ideal S128x128 .f32) (x4 : Vec Ideal S1x128 .f32)
    (r : Fin 5000) (q : Fin 128) :
    k1_pay1 (F := Ideal) x0 x1 x2 x3 x4 (ix2 r q) = Cert.RowSpec.denseAt x0 x1 x2 x3 (fun q => x4 (ix2 0 q)) r q := by
  unfold k1_pay1 Cert.RowSpec.denseAt
  simp only [shapeCast_self]
  rw [maximumf_apply, addf_apply, addf_apply, broadcast_apply,
    Cert.PlainDot.matmul_zero_apply plain5000 rfl rfl, Cert.PlainDot.matmul_zero_apply plain5000 rfl rfl, bias5000]
  simp only [truncf_apply]
  rfl

/-- The read-out kernel's body at an entry of its block. -/
theorem k2_pay1_apply (x0 : Vec Ideal S64x128 .f32) (x1 : Vec Ideal S128x128 .f32) (x2 : Vec Ideal S1x128 .f32)
    (r : Fin 64) (q : Fin 128) :
    k2_pay1 (F := Ideal) x0 x1 x2 (ix2 r q) = Cert.RowSpec.linAt x0 x1 (fun q => x2 (ix2 0 q)) r q := by
  unfold k2_pay1 Cert.RowSpec.linAt
  simp only [shapeCast_self]
  rw [addf_apply, Cert.PlainDot.matmul_zero_apply plain64 rfl rfl, bias64]
  simp only [truncf_apply]

end Cert.KPayload

end
-- ==== Proof.KRegion0.lean ====
/-
  The first layer's kernel region as one whole-array function of the arrays it finds.

  The grid has 8 points; point t stages rows 5000·t … 5000·t + 4999 of the two [40000, 128] operands, the two
  [128, 128] weights and the [1, 128] bias row whole, and writes back rows 5000·t … of the result.  Entry (r, q) of
  the block a point writes back is the row formula of the staged blocks, and a staged block's entry is the
  array's entry at the block's offset, so point t writes back ITS BLOCK of the one array
      denseArr A X W₁ W₂ B,   entry (p, q) = max ( Σ_κ A(p,κ)·W₁(κ,q) + Σ_κ X(p,κ)·W₂(κ,q) + B(0,q) , 0 ).
  The 8 blocks tile the 40000 rows (row p lies in block p / 5000), so the region leaves exactly that array.
-/
import proofs.«136990_j39977555591469_1_alg».proof.Proof.Gen.KernelIdeal.Frame
import proofs.«136990_j39977555591469_1_alg».proof.Proof.KPayload
import proofs.«136990_j39977555591469_1_alg».proof.Proof.RowSpec
import Idealize.ShloMosaic.Lib.Pipeline.Value

set_option maxRecDepth 16384

noncomputable section

namespace Cert.KRegion0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 8 points: the row-blocked windows move together along the rows and sit at
    column block 0; the weights and the bias sit at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) = 0 :=
  (by decide +kernel : ∀ t : Fin grid0.N, _)

/-- Every row block is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- What point t writes back is block t of the whole-array function of the arrays the region finds. -/
theorem flushed_eq (c : Dev nD) (t : Fin cfg0.N) :
    (dat0 V c).flushed 5 t = ((cfg0.win 5).blk t).view.read (Elt Ideal)
      (Cert.RowSpec.denseArr (V c main_v23) (V c main_arg0) (V c main_v24) (V c main_v25) (V c main_v26)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e5b, e51⟩ := idx_facts t
  funext j
  show k0_pay1 (F := Ideal) (iblk0 V c 0 t) (iblk0 V c 1 t) (iblk0 V c 2 t) (iblk0 V c 3 t) (iblk0 V c 4 t) j
    = Cert.RowSpec.denseArr (V c main_v23) (V c main_arg0) (V c main_v24) (V c main_v25) (V c main_v26)
        (((cfg0.win 5).blk t).view.emb j)
  obtain ⟨r, q, rfl⟩ : ∃ (r : Fin 5000) (q : Fin 128), j = ix2 r q := ⟨j 0, j 1, eq_ix2 j⟩
  rw [Cert.KPayload.k0_pay1_apply (iblk0 V c 0 t) (iblk0 V c 1 t) (iblk0 V c 2 t) (iblk0 V c 3 t) (iblk0 V c 4 t) r q]
  -- the array row under block row r
  have hP : win0_5.index t (0 : Fin 2) * 5000 + r.val < 40000 := by have := r.isLt; omega
  have he : ((cfg0.win 5).blk t).view.emb (ix2 r q) = ix2 (⟨win0_5.index t (0 : Fin 2) * 5000 + r.val, hP⟩ : Fin 40000) q := by
    funext a; apply Fin.ext
    match a with
    | ⟨0, _⟩ => show win0_5.index t (0 : Fin 2) * 5000 + 1 * r.val = win0_5.index t (0 : Fin 2) * 5000 + r.val; omega
    | ⟨1, _⟩ => show win0_5.index t (1 : Fin 2) * 128 + 1 * q.val = q.val; omega
  rw [he]
  show Cert.RowSpec.denseAt _ _ _ _ _ r q
    = Cert.RowSpec.denseAt (V c main_v23) (V c main_arg0) (V c main_v24) (V c main_v25) (fun q => V c main_v26 (ix2 0 q))
        (⟨win0_5.index t (0 : Fin 2) * 5000 + r.val, hP⟩ : Fin 40000) q
  -- each staged block's entry is the array's entry at the block's offset
  have hA : ∀ κ : Fin 128, iblk0 V c 0 t (ix2 r κ)
      = V c main_v23 (ix2 (⟨win0_5.index t (0 : Fin 2) * 5000 + r.val, hP⟩ : Fin 40000) κ) := fun κ => by
    show V c main_v23 (((cfg0.win 0).blk t).view.emb (ix2 r κ)) = _
    refine congrArg (V c main_v23) (funext fun a => Fin.ext ?_)
    match a with
    | ⟨0, _⟩ => show win0_0.index t (0 : Fin 2) * 5000 + 1 * r.val = win0_5.index t (0 : Fin 2) * 5000 + r.val; omega
    | ⟨1, _⟩ => show win0_0.index t (1 : Fin 2) * 128 + 1 * κ.val = κ.val; omega
  have hX : ∀ κ : Fin 128, iblk0 V c 1 t (ix2 r κ)
      = V c main_arg0 (ix2 (⟨win0_5.index t (0 : Fin 2) * 5000 + r.val, hP⟩ : Fin 40000) κ) := fun κ => by
    show V c main_arg0 (((cfg0.win 1).blk t).view.emb (ix2 r κ)) = _
    refine congrArg (V c main_arg0) (funext fun a => Fin.ext ?_)
    match a with
    | ⟨0, _⟩ => show win0_1.index t (0 : Fin 2) * 5000 + 1 * r.val = win0_5.index t (0 : Fin 2) * 5000 + r.val; omega
    | ⟨1, _⟩ => show win0_1.index t (1 : Fin 2) * 128 + 1 * κ.val = κ.val; omega
  have hW1 : ∀ κ : Fin 128, iblk0 V c 2 t (ix2 κ q) = V c main_v24 (ix2 κ q) := fun κ => by
    show V c main_v24 (((cfg0.win 2).blk t).view.emb (ix2 κ q)) = _
    refine congrArg (V c main_v24) (funext fun a => Fin.ext ?_)
    match a with
    | ⟨0, _⟩ => show win0_2.index t (0 : Fin 2) * 128 + 1 * κ.val = κ.val; omega
    | ⟨1, _⟩ => show win0_2.index t (1 : Fin 2) * 128 + 1 * q.val = q.val; omega
  have hW2 : ∀ κ : Fin 128, iblk0 V c 3 t (ix2 κ q) = V c main_v25 (ix2 κ q) := fun κ => by
    show V c main_v25 (((cfg0.win 3).blk t).view.emb (ix2 κ q)) = _
    refine congrArg (V c main_v25) (funext fun a => Fin.ext ?_)
    match a with
    | ⟨0, _⟩ => show win0_3.index t (0 : Fin 2) * 128 + 1 * κ.val = κ.val; omega
    | ⟨1, _⟩ => show win0_3.index t (1 : Fin 2) * 128 + 1 * q.val = q.val; omega
  have hB : iblk0 V c 4 t (ix2 0 q) = V c main_v26 (ix2 0 q) := by
    show V c main_v26 (((cfg0.win 4).blk t).view.emb (ix2 0 q)) = _
    refine congrArg (V c main_v26) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  unfold Cert.RowSpec.denseAt
  simp only [hA, hX, hW1, hW2, hB]

/-- An index of the result array is in point t's block iff each coordinate is in the block's range. -/
theorem mem_blk (t : Fin cfg0.N) (i : S40000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Row p lies in the block of the point whose row block is p / 5000. -/
theorem cover (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region: the dense map of the arrays the region finds. -/
theorem final (c : Dev nD) :
    (dat0 V c).arrAt 5 cfg0.N
      = Cert.RowSpec.denseArr (V c main_v23) (V c main_arg0) (V c main_v24) (V c main_v25) (V c main_v26) :=
  (dat0 V c).arrAt_eq_of_cover 5 _ (fun t _ => flushed_eq V c t) cover

end Cert.KRegion0

end
-- ==== Proof.KRegion1.lean ====
/-
  The second layer's kernel region as one whole-array function of the arrays it finds.

  The grid has 8 points; point t stages rows 5000·t … 5000·t + 4999 of the two [40000, 128] operands, the two
  [128, 128] weights and the [1, 128] bias row whole, and writes back rows 5000·t … of the result.  Entry (r, q) of
  the block a point writes back is the row formula of the staged blocks, and a staged block's entry is the
  array's entry at the block's offset, so point t writes back ITS BLOCK of the one array
      denseArr A X W₁ W₂ B,   entry (p, q) = max ( Σ_κ A(p,κ)·W₁(κ,q) + Σ_κ X(p,κ)·W₂(κ,q) + B(0,q) , 0 ).
  The 8 blocks tile the 40000 rows (row p lies in block p / 5000), so the region leaves exactly that array.
-/
import proofs.«136990_j39977555591469_1_alg».proof.Proof.Gen.KernelIdeal.Frame
import proofs.«136990_j39977555591469_1_alg».proof.Proof.KPayload
import proofs.«136990_j39977555591469_1_alg».proof.Proof.RowSpec
import Idealize.ShloMosaic.Lib.Pipeline.Value

set_option maxRecDepth 16384

noncomputable section

namespace Cert.KRegion1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 8 points: the row-blocked windows move together along the rows and sit at
    column block 0; the weights and the bias sit at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 7 ∧ win1_5.index t (1 : Fin 2) = 0 :=
  (by decide +kernel : ∀ t : Fin grid1.N, _)

/-- Every row block is some point's. -/
theorem idx_onto : ∀ q0 : Fin 8, ∃ t : Fin cfg1.N, win1_5.index t = ![q0.val, 0] :=
  (by decide +kernel : ∀ q0 : Fin 8, ∃ t : Fin grid1.N, win1_5.index t = ![q0.val, 0])

/-- What point t writes back is block t of the whole-array function of the arrays the region finds. -/
theorem flushed_eq (c : Dev nD) (t : Fin cfg1.N) :
    (dat1 V c).flushed 5 t = ((cfg1.win 5).blk t).view.read (Elt Ideal)
      (Cert.RowSpec.denseArr (V c main_v45) (V c main_v27) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e5b, e51⟩ := idx_facts t
  funext j
  show k1_pay1 (F := Ideal) (iblk1 V c 0 t) (iblk1 V c 1 t) (iblk1 V c 2 t) (iblk1 V c 3 t) (iblk1 V c 4 t) j
    = Cert.RowSpec.denseArr (V c main_v45) (V c main_v27) (V c main_v46) (V c main_v47) (V c main_v48)
        (((cfg1.win 5).blk t).view.emb j)
  obtain ⟨r, q, rfl⟩ : ∃ (r : Fin 5000) (q : Fin 128), j = ix2 r q := ⟨j 0, j 1, eq_ix2 j⟩
  rw [Cert.KPayload.k1_pay1_apply (iblk1 V c 0 t) (iblk1 V c 1 t) (iblk1 V c 2 t) (iblk1 V c 3 t) (iblk1 V c 4 t) r q]
  -- the array row under block row r
  have hP : win1_5.index t (0 : Fin 2) * 5000 + r.val < 40000 := by have := r.isLt; omega
  have he : ((cfg1.win 5).blk t).view.emb (ix2 r q) = ix2 (⟨win1_5.index t (0 : Fin 2) * 5000 + r.val, hP⟩ : Fin 40000) q := by
    funext a; apply Fin.ext
    match a with
    | ⟨0, _⟩ => show win1_5.index t (0 : Fin 2) * 5000 + 1 * r.val = win1_5.index t (0 : Fin 2) * 5000 + r.val; omega
    | ⟨1, _⟩ => show win1_5.index t (1 : Fin 2) * 128 + 1 * q.val = q.val; omega
  rw [he]
  show Cert.RowSpec.denseAt _ _ _ _ _ r q
    = Cert.RowSpec.denseAt (V c main_v45) (V c main_v27) (V c main_v46) (V c main_v47) (fun q => V c main_v48 (ix2 0 q))
        (⟨win1_5.index t (0 : Fin 2) * 5000 + r.val, hP⟩ : Fin 40000) q
  -- each staged block's entry is the array's entry at the block's offset
  have hA : ∀ κ : Fin 128, iblk1 V c 0 t (ix2 r κ)
      = V c main_v45 (ix2 (⟨win1_5.index t (0 : Fin 2) * 5000 + r.val, hP⟩ : Fin 40000) κ) := fun κ => by
    show V c main_v45 (((cfg1.win 0).blk t).view.emb (ix2 r κ)) = _
    refine congrArg (V c main_v45) (funext fun a => Fin.ext ?_)
    match a with
    | ⟨0, _⟩ => show win1_0.index t (0 : Fin 2) * 5000 + 1 * r.val = win1_5.index t (0 : Fin 2) * 5000 + r.val; omega
    | ⟨1, _⟩ => show win1_0.index t (1 : Fin 2) * 128 + 1 * κ.val = κ.val; omega
  have hX : ∀ κ : Fin 128, iblk1 V c 1 t (ix2 r κ)
      = V c main_v27 (ix2 (⟨win1_5.index t (0 : Fin 2) * 5000 + r.val, hP⟩ : Fin 40000) κ) := fun κ => by
    show V c main_v27 (((cfg1.win 1).blk t).view.emb (ix2 r κ)) = _
    refine congrArg (V c main_v27) (funext fun a => Fin.ext ?_)
    match a with
    | ⟨0, _⟩ => show win1_1.index t (0 : Fin 2) * 5000 + 1 * r.val = win1_5.index t (0 : Fin 2) * 5000 + r.val; omega
    | ⟨1, _⟩ => show win1_1.index t (1 : Fin 2) * 128 + 1 * κ.val = κ.val; omega
  have hW1 : ∀ κ : Fin 128, iblk1 V c 2 t (ix2 κ q) = V c main_v46 (ix2 κ q) := fun κ => by
    show V c main_v46 (((cfg1.win 2).blk t).view.emb (ix2 κ q)) = _
    refine congrArg (V c main_v46) (funext fun a => Fin.ext ?_)
    match a with
    | ⟨0, _⟩ => show win1_2.index t (0 : Fin 2) * 128 + 1 * κ.val = κ.val; omega
    | ⟨1, _⟩ => show win1_2.index t (1 : Fin 2) * 128 + 1 * q.val = q.val; omega
  have hW2 : ∀ κ : Fin 128, iblk1 V c 3 t (ix2 κ q) = V c main_v47 (ix2 κ q) := fun κ => by
    show V c main_v47 (((cfg1.win 3).blk t).view.emb (ix2 κ q)) = _
    refine congrArg (V c main_v47) (funext fun a => Fin.ext ?_)
    match a with
    | ⟨0, _⟩ => show win1_3.index t (0 : Fin 2) * 128 + 1 * κ.val = κ.val; omega
    | ⟨1, _⟩ => show win1_3.index t (1 : Fin 2) * 128 + 1 * q.val = q.val; omega
  have hB : iblk1 V c 4 t (ix2 0 q) = V c main_v48 (ix2 0 q) := by
    show V c main_v48 (((cfg1.win 4).blk t).view.emb (ix2 0 q)) = _
    refine congrArg (V c main_v48) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  unfold Cert.RowSpec.denseAt
  simp only [hA, hX, hW1, hW2, hB]

/-- An index of the result array is in point t's block iff each coordinate is in the block's range. -/
theorem mem_blk (t : Fin cfg1.N) (i : S40000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- Row p lies in the block of the point whose row block is p / 5000. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region: the dense map of the arrays the region finds. -/
theorem final (c : Dev nD) :
    (dat1 V c).arrAt 5 cfg1.N
      = Cert.RowSpec.denseArr (V c main_v45) (V c main_v27) (V c main_v46) (V c main_v47) (V c main_v48) :=
  (dat1 V c).arrAt_eq_of_cover 5 _ (fun t _ => flushed_eq V c t) cover

end Cert.KRegion1

end
-- ==== Proof.KRegion2.lean ====
/-
  The read-out kernel's region as one whole-array function of the arrays it finds.

  The grid has one point, and every window's block is its whole array: the pooled features [64, 128], the weight
  [128, 128] and the bias row [1, 128] are staged whole and the result [64, 128] is written back whole.  Entry (r, q)
  of what the point writes back is the row formula of the staged arrays, so the region leaves
      linArr P W B,   entry (p, q) = Σ_κ P(p,κ)·W(κ,q) + B(0,q).
-/
import proofs.«136990_j39977555591469_1_alg».proof.Proof.Gen.KernelIdeal.Frame
import proofs.«136990_j39977555591469_1_alg».proof.Proof.KPayload
import proofs.«136990_j39977555591469_1_alg».proof.Proof.RowSpec
import Idealize.ShloMosaic.Lib.Pipeline.Value

set_option maxRecDepth 16384

noncomputable section

namespace Cert.KRegion2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window sits at block (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the point writes back is its block — the whole — of the affine map of the arrays the region finds. -/
theorem flushed_eq (c : Dev nD) (t : Fin cfg2.N) :
    (dat2 V c).flushed 3 t = ((cfg2.win 3).blk t).view.read (Elt Ideal)
      (Cert.RowSpec.linArr (V c main_v60) (V c main_v61) (V c main_v62)) := by
  show (cfg2.win 3).cut (grid2.coords t) ((dat2 V c).after 3 t) = _
  rw [after2_3]
  unfold out2_3
  rw [View.canon_unit_zero hz]
  simp only [View.ld_unit_zero (S := S64x128) hz, View.ld_unit_zero (S := S128x128) hz, View.ld_unit_zero (S := S1x128) hz]
  obtain ⟨e00, e01, e10, e11, e20, e21, e30, e31⟩ := idx_facts t
  funext j
  show k2_pay1 (F := Ideal) (iblk2 V c 0 t) (iblk2 V c 1 t) (iblk2 V c 2 t) j
    = Cert.RowSpec.linArr (V c main_v60) (V c main_v61) (V c main_v62) (((cfg2.win 3).blk t).view.emb j)
  obtain ⟨r, q, rfl⟩ : ∃ (r : Fin 64) (q : Fin 128), j = ix2 r q := ⟨j 0, j 1, eq_ix2 j⟩
  rw [Cert.KPayload.k2_pay1_apply (iblk2 V c 0 t) (iblk2 V c 1 t) (iblk2 V c 2 t) r q]
  have he : ((cfg2.win 3).blk t).view.emb (ix2 r q) = ix2 r q := by
    funext a; apply Fin.ext
    match a with
    | ⟨0, _⟩ => show win2_3.index t (0 : Fin 2) * 64 + 1 * r.val = r.val; omega
    | ⟨1, _⟩ => show win2_3.index t (1 : Fin 2) * 128 + 1 * q.val = q.val; omega
  rw [he]
  show Cert.RowSpec.linAt _ _ _ r q
    = Cert.RowSpec.linAt (V c main_v60) (V c main_v61) (fun q => V c main_v62 (ix2 0 q)) r q
  -- each staged block is its array
  have hP : ∀ κ : Fin 128, iblk2 V c 0 t (ix2 r κ) = V c main_v60 (ix2 r κ) := fun κ => by
    show V c main_v60 (((cfg2.win 0).blk t).view.emb (ix2 r κ)) = _
    refine congrArg (V c main_v60) (funext fun a => Fin.ext ?_)
    match a with
    | ⟨0, _⟩ => show win2_0.index t (0 : Fin 2) * 64 + 1 * r.val = r.val; omega
    | ⟨1, _⟩ => show win2_0.index t (1 : Fin 2) * 128 + 1 * κ.val = κ.val; omega
  have hW : ∀ κ : Fin 128, iblk2 V c 1 t (ix2 κ q) = V c main_v61 (ix2 κ q) := fun κ => by
    show V c main_v61 (((cfg2.win 1).blk t).view.emb (ix2 κ q)) = _
    refine congrArg (V c main_v61) (funext fun a => Fin.ext ?_)
    match a with
    | ⟨0, _⟩ => show win2_1.index t (0 : Fin 2) * 128 + 1 * κ.val = κ.val; omega
    | ⟨1, _⟩ => show win2_1.index t (1 : Fin 2) * 128 + 1 * q.val = q.val; omega
  have hB : iblk2 V c 2 t (ix2 0 q) = V c main_v62 (ix2 0 q) := by
    show V c main_v62 (((cfg2.win 2).blk t).view.emb (ix2 0 q)) = _
    refine congrArg (V c main_v62) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  unfold Cert.RowSpec.linAt
  simp only [hP, hW, hB]

/-- An index of the result array is in the point's block iff each coordinate is in the block's range. -/
theorem mem_blk (t : Fin cfg2.N) (i : S64x128.Idx) :
    i ∈ ((cfg2.win 3).blk t).view.set ↔ ∀ a : Fin 2, win2_3.index t a * S64x128.size a ≤ (i a).val
      ∧ (i a).val < win2_3.index t a * S64x128.size a + S64x128.size a := by
  show i ∈ ((View.whole main_v63).slice (win2_3.rect t)).set ↔ _
  rw [View.set_slice_whole, Rect.mem_set_unit]
  exact Iff.rfl

/-- The one block is the whole array. -/
theorem cover (i : S64x128.Idx) : ∃ t : Fin cfg2.N, (cfg2.win 3).flush t = true ∧ i ∈ ((cfg2.win 3).blk t).view.set := by
  have hi0 : (i 0).val < 64 := (i 0).isLt
  have hi1 : (i 1).val < 128 := (i 1).isLt
  obtain ⟨e00, e01, e10, e11, e20, e21, e30, e31⟩ := idx_facts t2_0
  refine ⟨t2_0, flush2_3 t2_0, ?_⟩
  rw [mem_blk]
  intro a
  match a with
  | ⟨0, _⟩ => show win2_3.index t2_0 (0 : Fin 2) * 64 ≤ (i 0).val ∧ (i 0).val < win2_3.index t2_0 (0 : Fin 2) * 64 + 64; omega
  | ⟨1, _⟩ => show win2_3.index t2_0 (1 : Fin 2) * 128 ≤ (i 1).val ∧ (i 1).val < win2_3.index t2_0 (1 : Fin 2) * 128 + 128; omega

/-- The result array after the region: the affine map of the arrays the region finds. -/
theorem final (c : Dev nD) :
    (dat2 V c).arrAt 3 cfg2.N = Cert.RowSpec.linArr (V c main_v60) (V c main_v61) (V c main_v62) :=
  (dat2 V c).arrAt_eq_of_cover 3 _ (fun t _ => flushed_eq V c t) cover

end Cert.KRegion2

end
-- ==== Proof.RefDense.lean ====
/-
  The reference's two dense stages, read at one entry, are the row formulas.

  The host's product is the exact sum over the contraction index, the transposed weight reads W(q, κ) at (κ, q), the
  bias vector broadcast first to a [1, 128] row and then down the rows reads b(q), and the clamp's zero array reads 0:
      dense A X Wr Wo b (p, q) = max ( Σ_κ A(p,κ)·Wr(q,κ) + Σ_κ X(p,κ)·Wo(q,κ) + b(q) , 0 )
      lin P Wc bc (p, q)       =       Σ_κ P(p,κ)·Wc(q,κ) + bc(q).
  Written over the transposed weights and the bias reshaped to a [1, 128] row — the arrays the kernel's windows
  stage — these are the whole-array forms  denseArr / linArr.
-/
import proofs.«136990_j39977555591469_1_alg».proof.Proof.Stages
import proofs.«136990_j39977555591469_1_alg».proof.Proof.RowSpec
import proofs.«136990_j39977555591469_1_alg».proof.Proof.LibPlainDot
import Idealize.ShloMosaic.Lib.Pipeline.Value

noncomputable section

namespace Cert.RefDense

open Idealize.ShloMosaic Idealize.ShloMosaic.ValueIdx Cert.ReferenceIdeal Cert.ReferenceIdeal.Gen

/-- The layers' host product [40000, 128] · [128, 128] is a plain matrix product. -/
theorem plain40000 : Cert.PlainDot.Plain dot_S40000x128_S128x128_S40000x128_1_0_0_1_n_n := ⟨rfl, rfl, rfl, rfl, rfl, rfl⟩
/-- So is the read-out's [64, 128] · [128, 128]. -/
theorem plain64 : Cert.PlainDot.Plain dot_S64x128_S128x128_S64x128_1_0_0_1_n_n := ⟨rfl, rfl, rfl, rfl, rfl, rfl⟩

/-- A bias vector reshaped to a [1, 128] row reads its entry. -/
theorem row_of_vec (b : FVec Ideal S128 .f32) (h : S128.ShapeCasts S1x128) (q : Fin 128) :
    shapeCast S1x128 b h (ix2 0 q) = b (ix1 q) :=
  shapeCast_apply b h (ix2 0 q) (ix1 q) (by
    rw [Shape.rowMajor_val_one, Shape.rowMajor_val_two]
    show q.val = 0 * 128 + q.val
    omega)

/-- A bias vector broadcast to a row and then down 40000 rows reads its entry. -/
theorem bias40000 (b : FVec Ideal S128 .f32) (p : Fin 40000) (q : Fin 128) :
    broadcastInDim S40000x128 ![0, 1] bcast_S1x128_S40000x128_0_1 (broadcastInDim S1x128 ![1] bcast_S128_S1x128_1 b) (ix2 p q)
      = b (ix1 q) := by
  rw [broadcastInDim_apply _ bcast_S1x128_S40000x128_0_1 _ (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])]
  exact broadcastInDim_apply _ bcast_S128_S1x128_1 b (ix2 0 q) (ix1 q) (fun a => by
    match a with
    | ⟨0, _⟩ => show q.val = if (128 : Nat) = 1 then 0 else q.val; rw [if_neg (by decide)])

/-- A bias vector broadcast to a row and then down 64 rows reads its entry. -/
theorem bias64 (b : FVec Ideal S128 .f32) (p : Fin 64) (q : Fin 128) :
    broadcastInDim S64x128 ![0, 1] bcast_S1x128_S64x128_0_1 (broadcastInDim S1x128 ![1] bcast_S128_S1x128_1 b) (ix2 p q)
      = b (ix1 q) := by
  rw [broadcastInDim_apply _ bcast_S1x128_S64x128_0_1 _ (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])]
  exact broadcastInDim_apply _ bcast_S128_S1x128_1 b (ix2 0 q) (ix1 q) (fun a => by
    match a with
    | ⟨0, _⟩ => show q.val = if (128 : Nat) = 1 then 0 else q.val; rw [if_neg (by decide)])

/-- The clamp's zero array reads the zero word's value. -/
theorem zeros40000 (p : Fin 40000) (q : Fin 128) :
    broadcastInDim S40000x128 ![] bcast_S_S40000x128 (constant (F := Ideal) S_ .f32 0x00000000#32) (ix2 p q)
      = Ideal.ofBits .f32 0x00000000#32 :=
  broadcastInDim_apply _ bcast_S_S40000x128 _ (ix2 p q) ix0 (fun a => a.elim0)

/-- A layer's dense stage is the row formula over the transposed weights and the bias as a row. -/
theorem dense_eq (A X : FVec Ideal S40000x128 .f32) (Wr Wo : FVec Ideal S128x128 .f32) (b : FVec Ideal S128 .f32)
    (h : S128.ShapeCasts S1x128) :
    Cert.Stages.dense (F := Ideal) A X Wr Wo b
      = Cert.RowSpec.denseArr A X (transpose S128x128 [1, 0] Wr transposes_S128x128_S128x128_1_0)
          (transpose S128x128 [1, 0] Wo transposes_S128x128_S128x128_1_0) (shapeCast S1x128 b h) := by
  funext i
  obtain ⟨p, q, rfl⟩ : ∃ (p : Fin 40000) (q : Fin 128), i = ix2 p q := ⟨i 0, i 1, eq_ix2 i⟩
  show Cert.Stages.dense (F := Ideal) A X Wr Wo b (ix2 p q)
    = Cert.RowSpec.denseAt A X _ _ (fun q => shapeCast S1x128 b h (ix2 0 q)) p q
  unfold Cert.Stages.dense Cert.RowSpec.denseAt
  rw [maximumf_apply, addf_apply, addf_apply, Cert.PlainDot.dotGeneral_apply plain40000 rfl rfl,
    Cert.PlainDot.dotGeneral_apply plain40000 rfl rfl, bias40000, zeros40000]
  simp only [row_of_vec]

/-- The read-out's affine stage is the row formula over the transposed weight and the bias as a row. -/
theorem lin_eq (P : FVec Ideal S64x128 .f32) (Wc : FVec Ideal S128x128 .f32) (bc : FVec Ideal S128 .f32)
    (h : S128.ShapeCasts S1x128) :
    Cert.Stages.lin (F := Ideal) P Wc bc
      = Cert.RowSpec.linArr P (transpose S128x128 [1, 0] Wc transposes_S128x128_S128x128_1_0) (shapeCast S1x128 bc h) := by
  funext i
  obtain ⟨p, q, rfl⟩ : ∃ (p : Fin 64) (q : Fin 128), i = ix2 p q := ⟨i 0, i 1, eq_ix2 i⟩
  show Cert.Stages.lin (F := Ideal) P Wc bc (ix2 p q)
    = Cert.RowSpec.linAt P _ (fun q => shapeCast S1x128 bc h (ix2 0 q)) p q
  unfold Cert.Stages.lin Cert.RowSpec.linAt
  rw [addf_apply, Cert.PlainDot.dotGeneral_apply plain64 rfl rfl, bias64]
  simp only [row_of_vec]

end Cert.RefDense

end
-- ==== Proof.KValue.lean ====
/-
  The kernel program's result array is the network of stages of its launch arrays.

  Region by region: what a region's windows find is what the host stretch before it computed (or left alone), the
  region leaves its dense map of those arrays, and that dense map over the transposed weights and the bias row is
  the reference's dense stage.  So the first region leaves  h₁ = conv x e Wr₁ Wo₁ b₁,  the second
  h₂ = conv h₁ e Wr₂ Wo₂ b₂,  and the read-out leaves  lin (pool h₂ batch) Wc bc.
-/
import proofs.«136990_j39977555591469_1_alg».proof.Proof.KStretch2
import proofs.«136990_j39977555591469_1_alg».proof.Proof.KRegion0
import proofs.«136990_j39977555591469_1_alg».proof.Proof.KRegion1
import proofs.«136990_j39977555591469_1_alg».proof.Proof.KRegion2
import proofs.«136990_j39977555591469_1_alg».proof.Proof.RefDense

set_option maxRecDepth 16384

noncomputable section

namespace Cert.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region leaves the first layer of the launch features. -/
theorem layer1 (c : Dev nD) : W2 m ρ c (Proc.devRef .tc main_v27)
    = Cert.Stages.conv (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Cert.KRegion0.final (V1 m ρ) c).trans ?_)
  show Cert.RowSpec.denseArr (W1 m ρ c (Proc.devRef .tc main_v23)) (W1 m ρ c (Proc.devRef .tc main_arg0))
    (W1 m ρ c (Proc.devRef .tc main_v24)) (W1 m ρ c (Proc.devRef .tc main_v25)) (W1 m ρ c (Proc.devRef .tc main_v26)) = _
  rw [Cert.KStretch0.v23, Cert.KStretch0.arg m ρ c main_arg0 (by simp), Cert.KStretch0.v24, Cert.KStretch0.v25, Cert.KStretch0.v26]
  exact (Cert.RefDense.dense_eq _ _ _ _ _ _).symm

/-- The second region leaves the second layer of the first layer's result. -/
theorem layer2 (c : Dev nD) : W4 m ρ c (Proc.devRef .tc main_v49)
    = Cert.Stages.conv (F := Ideal) (Cert.Stages.conv (F := Ideal) (m ((c : Thread nD τ).loc main_arg0)) (m ((c : Thread nD τ).loc main_arg1)) (m ((c : Thread nD τ).loc main_arg3)) (m ((c : Thread nD τ).loc main_arg4)) (m ((c : Thread nD τ).loc main_arg5)))
        (m ((c : Thread nD τ).loc main_arg1)) (m ((c : Thread nD τ).loc main_arg6)) (m ((c : Thread nD τ).loc main_arg7)) (m ((c : Thread nD τ).loc main_arg8)) := by
  refine (W4_arr m ρ c 5).trans ((Cert.KRegion1.final (V3 m ρ) c).trans ?_)
  show Cert.RowSpec.denseArr (W3 m ρ c (Proc.devRef .tc main_v45)) (W3 m ρ c (Proc.devRef .tc main_v27))
    (W3 m ρ c (Proc.devRef .tc main_v46)) (W3 m ρ c (Proc.devRef .tc main_v47)) (W3 m ρ c (Proc.devRef .tc main_v48)) = _
  rw [Cert.KStretch1.v45, Cert.KStretch1.v27, Cert.KStretch1.v46, Cert.KStretch1.v47, Cert.KStretch1.v48, layer1]
  exact (Cert.RefDense.dense_eq _ _ _ _ _ _).symm

/-- The read-out region leaves the network's result. -/
theorem result (c : Dev nD) : W6 m ρ c (Proc.devRef .tc main_v63)
    = Cert.Stages.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ((Cert.KRegion2.final (V5 m ρ) c).trans ?_)
  show Cert.RowSpec.linArr (W5 m ρ c (Proc.devRef .tc main_v60)) (W5 m ρ c (Proc.devRef .tc main_v61))
    (W5 m ρ c (Proc.devRef .tc main_v62)) = _
  rw [Cert.KStretch2.v60, Cert.KStretch2.v61, Cert.KStretch2.v62, layer2]
  exact (Cert.RefDense.lin_eq _ _ _ _).symm

end Cert.KValue

end
-- ==== Proof.RefNet.lean ====
/-
  The reference program's result, as the generated run states it, is the network of stages applied to the
  launch arrays: the composed term folds back into  lin (pool (conv (conv x e …) e …) batch) Wc bc  by unfolding
  the stage functions, nothing else.
-/
import proofs.«136990_j39977555591469_1_alg».proof.Proof.Gen.ReferenceIdeal.Run
import proofs.«136990_j39977555591469_1_alg».proof.Proof.Stages

noncomputable section

namespace Cert.RefNet

open Idealize.ShloMosaic Idealize.ShloMosaic.TcCoe Idealize.SL.Sem Cert.ReferenceIdeal Cert.ReferenceIdeal.Gen

variable {F : FTy → Type} [FloatOps F]

set_option maxRecDepth 8192 in
/-- The reference's result array is the network of its eleven argument arrays. -/
theorem res_eq (m : (ℓ : Loc nD τ sig) → Buf (Elt F) ℓ) (c : Dev nD) :
    Cert.ReferenceIdeal.Value.res_main_v76 (F := F) m c
      = Cert.Stages.net (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v76 Cert.Stages.net Cert.Stages.lin Cert.Stages.pool Cert.Stages.conv Cert.Stages.dense
    Cert.Stages.meanAgg Cert.Stages.srcCol Cert.Stages.dstCol
  rfl

end Cert.RefNet

end
-- ==== Proof.lean ====
/-
  A two-layer graph convolution network with a mean-pooled linear read-out: the kernel program against its
  reference, over the extended reals.

  Both programs compute, from node features x : [40000, 128], an edge list e : [2, 640000], a node-to-graph
  assignment and eight weight and bias arrays,
      lin (pool (conv (conv x e Wr₁ Wo₁ b₁) e Wr₂ Wo₂ b₂) batch) Wc bc,
  where  conv h e Wr Wo b = max (meanAgg h e · Wrᵀ + h · Woᵀ + b, 0)  and  lin P Wc bc = P · Wcᵀ + bc
  (Proof/Stages.lean).  They apply the SAME gather, scatter-add, quotient and index arithmetic; they differ only in
  the three dense maps, which the kernel runs as row-blocked pipelines over bf16-rounded operands (the rounding is
  the identity on extended reals) and the reference as whole matrix products.  A dense map's entry (p, q) is a sum
  over the one contracted axis of row p of the left operand against column q of the weight, so blocking the rows
  changes nothing entry by entry; no algebraic law is needed and the precondition is never opened.

  The pieces: Proof/RowSpec.lean (the entry formulas), Proof/KPayload.lean (the kernel bodies at an entry),
  Proof/RefDense.lean (the reference's dense stages at an entry), Proof/KRegion0–2.lean (each kernel region leaves
  one whole-array function of what it finds), Proof/KStretch0–2.lean (what each region finds, read back through
  the host operations), Proof/KValue.lean (the kernel's result is the network), Proof/RefNet.lean (so is the
  reference's), Proof/KRun.lean (the kernel's run with its result buffer named).
-/
import proofs.«136990_j39977555591469_1_alg».proof.Defs
import proofs.«136990_j39977555591469_1_alg».proof.Proof.Gen.Kernel
import proofs.«136990_j39977555591469_1_alg».proof.Proof.Gen.Kernel.Frame
import proofs.«136990_j39977555591469_1_alg».proof.Proof.Gen.KernelIdeal
import proofs.«136990_j39977555591469_1_alg».proof.Proof.Gen.KernelIdeal.Frame
import proofs.«136990_j39977555591469_1_alg».proof.Proof.Gen.ReferenceIdeal
import proofs.«136990_j39977555591469_1_alg».proof.Proof.Gen.ReferenceIdeal.Run
import proofs.«136990_j39977555591469_1_alg».proof.Proof.Gen.Pre_finite_inputs
import proofs.«136990_j39977555591469_1_alg».proof.Proof.KRun
import proofs.«136990_j39977555591469_1_alg».proof.Proof.KValue
import proofs.«136990_j39977555591469_1_alg».proof.Proof.RefNet
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network of the arguments. -/
theorem algebraic : Cert.algebraic_KernelIdeal_ReferenceIdeal := by
  intro m ρ m' ρ' _ hagree
  refine ⟨fun c => Cert.Stages.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KValue.result m ρ c), (h c).2⟩) (Cert.KernelIdeal.RunNamed.run_named m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10⟩ := hagree c
    rw [Cert.RefNet.res_eq, g0, g1, g2, g3, g4, g5, g6, g7, g8, g9, g10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
